-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2000x257x2 : Shape := ⟨4, ![16, 2000, 257, 2]⟩
abbrev S257x512 : Shape := ⟨2, ![257, 512]⟩
abbrev S_ : Shape := ⟨0, ![]⟩

class Facts : Prop where
  bcast_S_S16x2000x257x2 : S_.BroadcastsInDim S16x2000x257x2 (![] : Fin 0 → Fin S16x2000x257x2.rank)
  reducesTo_S16x2000x257x2_S_d0_1_2_3 : S16x2000x257x2.ReducesTo [0, 1, 2, 3] S_
  h_S_ : 0 < S_.numel
  bcast_S_S257x512 : S_.BroadcastsInDim S257x512 (![] : Fin 0 → Fin S257x512.rank)
  reducesTo_S257x512_S_d0_1 : S257x512.ReducesTo [0, 1] S_

variable [Facts]

def fn {F : FTy → Type} [FloatOps F] (main_arg0 : FVec F S16x2000x257x2 .f32) (main_arg1 : FVec F S257x512 .f32) (main_arg2 : FVec F S257x512 .f32) : IVec S_ 1 :=
  let main_v0 : FVec F S16x2000x257x2 .f32 := Host.absf main_arg0
  let main_cst : FVec F S_ .f32 := constant S_ .f32 0x7F800000#32
  let main_v1 : FVec F S16x2000x257x2 .f32 := broadcastInDim S16x2000x257x2 ![] bcast_S_S16x2000x257x2 main_cst
  let main_v2 : IVec S16x2000x257x2 1 := cmpf .olt main_v0 main_v1
  let main_c : IVec S_ 1 := constantI S_ 1 1#1
  let main_v3 : IVec S_ 1 := (fun x v => Host.reduce IntOp.andi x v reducesTo_S16x2000x257x2_S_d0_1_2_3 h_S_) main_v2 main_c
  let main_v4 : FVec F S257x512 .f32 := Host.absf main_arg1
  let main_cst_0 : FVec F S_ .f32 := constant S_ .f32 0x7F800000#32
  let main_v5 : FVec F S257x512 .f32 := broadcastInDim S257x512 ![] bcast_S_S257x512 main_cst_0
  let main_v6 : IVec S257x512 1 := cmpf .olt main_v4 main_v5
  let main_c_1 : IVec S_ 1 := constantI S_ 1 1#1
  let main_v7 : IVec S_ 1 := (fun x v => Host.reduce IntOp.andi x v reducesTo_S257x512_S_d0_1 h_S_) main_v6 main_c_1
  let main_v8 : IVec S_ 1 := andi main_v3 main_v7
  let main_v9 : FVec F S257x512 .f32 := Host.absf main_arg2
  let main_cst_2 : FVec F S_ .f32 := constant S_ .f32 0x7F800000#32
  let main_v10 : FVec F S257x512 .f32 := broadcastInDim S257x512 ![] bcast_S_S257x512 main_cst_2
  let main_v11 : IVec S257x512 1 := cmpf .olt main_v9 main_v10
  let main_c_3 : IVec S_ 1 := constantI S_ 1 1#1
  let main_v12 : IVec S_ 1 := (fun x v => Host.reduce IntOp.andi x v reducesTo_S257x512_S_d0_1 h_S_) main_v11 main_c_3
  let main_v13 : IVec S_ 1 := andi main_v8 main_v12
  main_v13
-- ==== Kernel.lean ====
abbrev S16x2000x257x2 : Shape := ⟨4, ![16, 2000, 257, 2]⟩
abbrev S257x512 : Shape := ⟨2, ![257, 512]⟩
abbrev S16x2000x257x1 : Shape := ⟨4, ![16, 2000, 257, 1]⟩
abbrev S16x2000x257 : Shape := ⟨3, ![16, 2000, 257]⟩
abbrev S16x2000x512 : Shape := ⟨3, ![16, 2000, 512]⟩
abbrev S1x2000x257 : Shape := ⟨3, ![1, 2000, 257]⟩
abbrev S1x2000x512 : Shape := ⟨3, ![1, 2000, 512]⟩
abbrev S2000x257 : Shape := ⟨2, ![2000, 257]⟩
abbrev S2000x512 : Shape := ⟨2, ![2000, 512]⟩
abbrev S16x2000x4x128 : Shape := ⟨4, ![16, 2000, 4, 128]⟩
abbrev S_ : Shape := ⟨0, ![]⟩
abbrev S16x2003x128 : Shape := ⟨3, ![16, 2003, 128]⟩
abbrev S16x2000x1x128 : Shape := ⟨4, ![16, 2000, 1, 128]⟩
abbrev S16x2000x128 : Shape := ⟨3, ![16, 2000, 128]⟩
abbrev S1 : Shape := ⟨1, ![1]⟩
abbrev S16x256384 : Shape := ⟨2, ![16, 256384]⟩
abbrev S16x1x256384 : Shape := ⟨3, ![16, 1, 256384]⟩

abbrev nBuf : Space → Nat
  | .hbm => 33
  | .vmem => 8
  | .smem => 0
  | _ => 0

abbrev bufTy : (tb : Table) → Fin (tcTables nBuf tb) → BufTy
  | .hbm, ⟨0, _⟩ => ⟨S16x2000x257x2, .f32⟩
  | .hbm, ⟨1, _⟩ => ⟨S257x512, .f32⟩
  | .hbm, ⟨2, _⟩ => ⟨S257x512, .f32⟩
  | .hbm, ⟨3, _⟩ => ⟨S16x2000x257x1, .f32⟩
  | .hbm, ⟨4, _⟩ => ⟨S16x2000x257, .f32⟩
  | .hbm, ⟨5, _⟩ => ⟨S16x2000x257x1, .f32⟩
  | .hbm, ⟨6, _⟩ => ⟨S16x2000x257, .f32⟩
  | .hbm, ⟨7, _⟩ => ⟨S16x2000x512, .f32⟩
  | .hbm, ⟨8, _⟩ => ⟨S16x2000x4x128, .f32⟩
  | .hbm, ⟨9, _⟩ => ⟨S_, .f32⟩
  | .hbm, ⟨10, _⟩ => ⟨S16x2003x128, .f32⟩
  | .hbm, ⟨11, _⟩ => ⟨S16x2000x1x128, .f32⟩
  | .hbm, ⟨12, _⟩ => ⟨S16x2000x128, .f32⟩
  | .hbm, ⟨13, _⟩ => ⟨S_, .i32⟩
  | .hbm, ⟨14, _⟩ => ⟨S1, .i32⟩
  | .hbm, ⟨15, _⟩ => ⟨S16x2003x128, .f32⟩
  | .hbm, ⟨16, _⟩ => ⟨S16x2000x1x128, .f32⟩
  | .hbm, ⟨17, _⟩ => ⟨S16x2000x128, .f32⟩
  | .hbm, ⟨18, _⟩ => ⟨S_, .i32⟩
  | .hbm, ⟨19, _⟩ => ⟨S1, .i32⟩
  | .hbm, ⟨20, _⟩ => ⟨S16x2003x128, .f32⟩
  | .hbm, ⟨21, _⟩ => ⟨S16x2000x1x128, .f32⟩
  | .hbm, ⟨22, _⟩ => ⟨S16x2000x128, .f32⟩
  | .hbm, ⟨23, _⟩ => ⟨S_, .i32⟩
  | .hbm, ⟨24, _⟩ => ⟨S1, .i32⟩
  | .hbm, ⟨25, _⟩ => ⟨S16x2003x128, .f32⟩
  | .hbm, ⟨26, _⟩ => ⟨S16x2000x1x128, .f32⟩
  | .hbm, ⟨27, _⟩ => ⟨S16x2000x128, .f32⟩
  | .hbm, ⟨28, _⟩ => ⟨S_, .i32⟩
  | .hbm, ⟨29, _⟩ => ⟨S1, .i32⟩
  | .hbm, ⟨30, _⟩ => ⟨S16x2003x128, .f32⟩
  | .hbm, ⟨31, _⟩ => ⟨S16x256384, .f32⟩
  | .hbm, ⟨32, _⟩ => ⟨S16x1x256384, .f32⟩
  | .local _ .vmem, ⟨0, _⟩ => ⟨S1x2000x257, .f32⟩
  | .local _ .vmem, ⟨1, _⟩ => ⟨S1x2000x257, .f32⟩
  | .local _ .vmem, ⟨2, _⟩ => ⟨S1x2000x257, .f32⟩
  | .local _ .vmem, ⟨3, _⟩ => ⟨S1x2000x257, .f32⟩
  | .local _ .vmem, ⟨4, _⟩ => ⟨S257x512, .f32⟩
  | .local _ .vmem, ⟨5, _⟩ => ⟨S257x512, .f32⟩
  | .local _ .vmem, ⟨6, _⟩ => ⟨S1x2000x512, .f32⟩
  | .local _ .vmem, ⟨7, _⟩ => ⟨S1x2000x512, .f32⟩
  | _, _ => ⟨S16x2000x257x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S257x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S257x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16x2000x257x2_S16x2000x257x1_0_0_0_0 : S16x2000x257x2.Slices ![0, 0, 0, 0] S16x2000x257x1
  shapeCasts_S16x2000x257x1_S16x2000x257 : S16x2000x257x1.ShapeCasts S16x2000x257
  slices_S16x2000x257x2_S16x2000x257x1_0_0_0_1 : S16x2000x257x2.Slices ![0, 0, 0, 1] S16x2000x257x1
  inb_S1x2000x257_S1x2000x257_0_0_0 : ∀ a, (![0, 0, 0] : Fin 3 → Nat) a + S1x2000x257.size a ≤ S1x2000x257.size a
  h_S1x2000x257 : 0 < S1x2000x257.numel
  shapeCasts_S1x2000x257_S2000x257 : S1x2000x257.ShapeCasts S2000x257
  bitsLt_bf16_f32 : FTy.bits .bf16 < FTy.bits .f32
  inb_S257x512_S257x512_0_0 : ∀ a, (![0, 0] : Fin 2 → Nat) a + S257x512.size a ≤ S257x512.size a
  h_S257x512 : 0 < S257x512.numel
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  shapeCasts_S2000x512_S1x2000x512 : S2000x512.ShapeCasts S1x2000x512
  shapeCasts_S16x2000x512_S16x2000x4x128 : S16x2000x512.ShapeCasts S16x2000x4x128
  bcast_S_S16x2003x128 : S_.BroadcastsInDim S16x2003x128 (![] : Fin 0 → Fin S16x2003x128.rank)
  slices_S16x2000x4x128_S16x2000x1x128_0_0_0_0 : S16x2000x4x128.Slices ![0, 0, 0, 0] S16x2000x1x128
  shapeCasts_S16x2000x1x128_S16x2000x128 : S16x2000x1x128.ShapeCasts S16x2000x128
  bcast_S_S1 : S_.BroadcastsInDim S1 (![] : Fin 0 → Fin S1.rank)
  slices_S16x2000x4x128_S16x2000x1x128_0_0_1_0 : S16x2000x4x128.Slices ![0, 0, 1, 0] S16x2000x1x128
  slices_S16x2000x4x128_S16x2000x1x128_0_0_2_0 : S16x2000x4x128.Slices ![0, 0, 2, 0] S16x2000x1x128
  slices_S16x2000x4x128_S16x2000x1x128_0_0_3_0 : S16x2000x4x128.Slices ![0, 0, 3, 0] S16x2000x1x128
  shapeCasts_S16x2003x128_S16x256384 : S16x2003x128.ShapeCasts S16x256384
  bcast_S16x256384_S16x1x256384_0_2 : S16x256384.BroadcastsInDim S16x1x256384 (![0, 2] : Fin 2 → Fin S16x1x256384.rank)
  dot_S2000x257_S257x512_S2000x512_1_0_0_1_n_n_wf : DotDims.WF S2000x257 S257x512 S2000x512 [1] [0] [0] [1] [] []
  scatter_S16x2003x128_S1_S16x2000x128_012_n_1_0_wf : ScatterDims.WF S16x2003x128 S1 S16x2000x128 [0, 1, 2] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x257.size a ≤ S16x2000x257.size a
  hwx0_0 : ∀ i : grid0.Coords, EltTy.bits .f32 = 32 ∨ (Rect.block (s := S16x2000x257) S1x2000x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x257.size a ≤ S16x2000x257.size a
  hwx0_1 : ∀ i : grid0.Coords, EltTy.bits .f32 = 32 ∨ (Rect.block (s := S16x2000x257) S1x2000x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S257x512.size a ≤ S257x512.size a
  hwx0_2 : ∀ i : grid0.Coords, EltTy.bits .f32 = 32 ∨ (Rect.block (s := S257x512) S257x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S257x512.size a ≤ S257x512.size a
  hwx0_3 : ∀ i : grid0.Coords, EltTy.bits .f32 = 32 ∨ (Rect.block (s := S257x512) S257x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2000x512.size a ≤ S16x2000x512.size a
  hwx0_4 : ∀ i : grid0.Coords, EltTy.bits .f32 = 32 ∨ (Rect.block (s := S16x2000x512) S1x2000x512.size (cc0_transform_4 i) (hinb0_4 i)).WholeWords (EltTy.packing .f32)

variable [Facts₀]

def dot_S2000x257_S257x512_S2000x512_1_0_0_1_n_n : DotDims S2000x257 S257x512 S2000x512 where
  lhsContracting := [1]
  rhsContracting := [0]
  lhsNonContracting := [0]
  rhsNonContracting := [1]
  lhsBatch := []
  rhsBatch := []
  wf := dot_S2000x257_S257x512_S2000x512_1_0_0_1_n_n_wf
def scatter_S16x2003x128_S1_S16x2000x128_012_n_1_0 : ScatterDims S16x2003x128 S1 S16x2000x128 where
  updateWindowDims := [0, 1, 2]
  insertedWindowDims := []
  scatterDimsToOperandDims := [1]
  indexVectorDim := 0
  wf := scatter_S16x2003x128_S1_S16x2000x128_012_n_1_0_wf

abbrev win0_0 : Pipeline.Window sig grid0 :=
  Pipeline.Window.ofSpec (Memref.whole main_v1) S1x2000x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2000x257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S257x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S257x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2000x257x2 : Shape := ⟨4, ![16, 2000, 257, 2]⟩
abbrev S257x512 : Shape := ⟨2, ![257, 512]⟩
abbrev S16x2000x257x1 : Shape := ⟨4, ![16, 2000, 257, 1]⟩
abbrev S16x2000x257 : Shape := ⟨3, ![16, 2000, 257]⟩
abbrev S16x2000x512 : Shape := ⟨3, ![16, 2000, 512]⟩
abbrev S2000 : Shape := ⟨1, ![2000]⟩
abbrev S2000x1 : Shape := ⟨2, ![2000, 1]⟩
abbrev S_ : Shape := ⟨0, ![]⟩
abbrev S512 : Shape := ⟨1, ![512]⟩
abbrev S1x512 : Shape := ⟨2, ![1, 512]⟩
abbrev S2000x512 : Shape := ⟨2, ![2000, 512]⟩
abbrev S16x256384 : Shape := ⟨2, ![16, 256384]⟩
abbrev S2000x512x1 : Shape := ⟨3, ![2000, 512, 1]⟩
abbrev S16x1x256384 : Shape := ⟨3, ![16, 1, 256384]⟩

abbrev nBuf : Space → Nat
  | .hbm => 32
  | .vmem => 0
  | .smem => 0
  | _ => 0

abbrev bufTy : (tb : Table) → Fin (tcTables nBuf tb) → BufTy
  | .hbm, ⟨0, _⟩ => ⟨S16x2000x257x2, .f32⟩
  | .hbm, ⟨1, _⟩ => ⟨S257x512, .f32⟩
  | .hbm, ⟨2, _⟩ => ⟨S257x512, .f32⟩
  | .hbm, ⟨3, _⟩ => ⟨S16x2000x257x1, .f32⟩
  | .hbm, ⟨4, _⟩ => ⟨S16x2000x257, .f32⟩
  | .hbm, ⟨5, _⟩ => ⟨S16x2000x257x1, .f32⟩
  | .hbm, ⟨6, _⟩ => ⟨S16x2000x257, .f32⟩
  | .hbm, ⟨7, _⟩ => ⟨S16x2000x512, .f32⟩
  | .hbm, ⟨8, _⟩ => ⟨S16x2000x512, .f32⟩
  | .hbm, ⟨9, _⟩ => ⟨S16x2000x512, .f32⟩
  | .hbm, ⟨10, _⟩ => ⟨S2000, .i32⟩
  | .hbm, ⟨11, _⟩ => ⟨S2000x1, .i32⟩
  | .hbm, ⟨12, _⟩ => ⟨S_, .i32⟩
  | .hbm, ⟨13, _⟩ => ⟨S2000x1, .i32⟩
  | .hbm, ⟨14, _⟩ => ⟨S2000x1, .i32⟩
  | .hbm, ⟨15, _⟩ => ⟨S512, .i32⟩
  | .hbm, ⟨16, _⟩ => ⟨S1x512, .i32⟩
  | .hbm, ⟨17, _⟩ => ⟨S2000x512, .i32⟩
  | .hbm, ⟨18, _⟩ => ⟨S2000x512, .i32⟩
  | .hbm, ⟨19, _⟩ => ⟨S2000x512, .i32⟩
  | .hbm, ⟨20, _⟩ => ⟨S_, .f32⟩
  | .hbm, ⟨21, _⟩ => ⟨S16x256384, .f32⟩
  | .hbm, ⟨22, _⟩ => ⟨S_, .i32⟩
  | .hbm, ⟨23, _⟩ => ⟨S2000x512, .i32⟩
  | .hbm, ⟨24, _⟩ => ⟨S2000x512, .i1⟩
  | .hbm, ⟨25, _⟩ => ⟨S_, .i32⟩
  | .hbm, ⟨26, _⟩ => ⟨S2000x512, .i32⟩
  | .hbm, ⟨27, _⟩ => ⟨S2000x512, .i32⟩
  | .hbm, ⟨28, _⟩ => ⟨S2000x512, .i32⟩
  | .hbm, ⟨29, _⟩ => ⟨S2000x512x1, .i32⟩
  | .hbm, ⟨30, _⟩ => ⟨S16x256384, .f32⟩
  | .hbm, ⟨31, _⟩ => ⟨S16x1x256384, .f32⟩
  | _, _ => ⟨S16x2000x257x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  slices_S16x2000x257x2_S16x2000x257x1_0_0_0_0 : S16x2000x257x2.Slices ![0, 0, 0, 0] S16x2000x257x1
  shapeCasts_S16x2000x257x1_S16x2000x257 : S16x2000x257x1.ShapeCasts S16x2000x257
  slices_S16x2000x257x2_S16x2000x257x1_0_0_0_1 : S16x2000x257x2.Slices ![0, 0, 0, 1] S16x2000x257x1
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S512_S1x512_1 : S512.BroadcastsInDim S1x512 (![1] : Fin 1 → Fin S1x512.rank)
  bcast_S2000x1_S2000x512_0_1 : S2000x1.BroadcastsInDim S2000x512 (![0, 1] : Fin 2 → Fin S2000x512.rank)
  bcast_S1x512_S2000x512_0_1 : S1x512.BroadcastsInDim S2000x512 (![0, 1] : Fin 2 → Fin S2000x512.rank)
  bcast_S_S16x256384 : S_.BroadcastsInDim S16x256384 (![] : Fin 0 → Fin S16x256384.rank)
  bcast_S_S2000x512 : S_.BroadcastsInDim S2000x512 (![] : Fin 0 → Fin S2000x512.rank)
  bcast_S2000x512_S2000x512x1_0_1 : S2000x512.BroadcastsInDim S2000x512x1 (![0, 1] : Fin 2 → Fin S2000x512x1.rank)
  bcast_S16x256384_S16x1x256384_0_2 : S16x256384.BroadcastsInDim S16x1x256384 (![0, 2] : Fin 2 → Fin S16x1x256384.rank)
  dot_S16x2000x257_S257x512_S16x2000x512_2_0_01_1_n_n_wf : DotDims.WF S16x2000x257 S257x512 S16x2000x512 [2] [0] [0, 1] [1] [] []
  scatter_S16x256384_S2000x512x1_S16x2000x512_0_1_1_2_wf : ScatterDims.WF S16x256384 S2000x512x1 S16x2000x512 [0] [1] [1] 2

variable [Facts₀]

def dot_S16x2000x257_S257x512_S16x2000x512_2_0_01_1_n_n : DotDims S16x2000x257 S257x512 S16x2000x512 where
  lhsContracting := [2]
  rhsContracting := [0]
  lhsNonContracting := [0, 1]
  rhsNonContracting := [1]
  lhsBatch := []
  rhsBatch := []
  wf := dot_S16x2000x257_S257x512_S16x2000x512_2_0_01_1_n_n_wf
def scatter_S16x256384_S2000x512x1_S16x2000x512_0_1_1_2 : ScatterDims S16x256384 S2000x512x1 S16x2000x512 where
  updateWindowDims := [0]
  insertedWindowDims := [1]
  scatterDimsToOperandDims := [1]
  indexVectorDim := 2
  wf := scatter_S16x256384_S2000x512x1_S16x2000x512_0_1_1_2_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.OverlapSum.lean ====
/-
  Overlap-add as a finite sum: which frames reach one output sample.

  Frames of length 512 are laid down every 128 samples: sample k of frame t lands on output position 128·t + k.
  Write an output position as p = 128·n + r with r < 128. The pairs (t, k) with 128·t + k = p are exactly
  (n − c, 128·c + r) for c = 0, 1, 2, 3 with c ≤ n and n − c < 2000: at most four frames overlap one sample.
  So the sum of a function over all (b', t, k) with b' = b and 128·t + k = p is a sum over those c.
-/
import Idealize.ShloMosaic.Lib.ValueIdx
import Mathlib.Algebra.BigOperators.Fin
import Mathlib.Algebra.BigOperators.Group.Finset.Basic

noncomputable section

open scoped BigOperators

namespace Cert.OverlapSum

open Idealize.ShloMosaic Idealize.ShloMosaic.ValueIdx

/-- The frames' index set: batch, frame, sample within the frame. -/
abbrev SFr : Shape := ⟨3, ![16, 2000, 512]⟩

/-- The overlaps that exist for hop-block n: c of 0..3 with frame n − c in range. -/
def hits (n : ℕ) : Finset (Fin 4) := Finset.univ.filter fun c => c.val ≤ n ∧ n - c.val < 2000

/-- Overlap c's contribution to position 128·n + r of batch b: sample 128·c + r of frame n − c. (The frame number is
    reduced mod 2000 only to make the index total; on `hits n` it is n − c itself.) -/
def term {α : Type} (fr : SFr.Idx → α) (b : Fin 16) (n r : ℕ) (hr : r < 128) (c : Fin 4) : α :=
  fr (ix3 b ⟨(n - c.val) % 2000, Nat.mod_lt _ (by decide)⟩ ⟨c.val * 128 + r, by have := c.isLt; omega⟩)

/-- The sum over all frame samples landing on position p of batch b is the sum over the overlaps. -/
theorem sum_landing {α : Type} [AddCommMonoid α] (fr : SFr.Idx → α) (b : Fin 16) (p : ℕ) :
    ∑ j ∈ Finset.univ.filter (fun j : SFr.Idx => (j 0).val = b.val ∧ (j 1).val * 128 + (j 2).val = p), fr j
      = ∑ c ∈ hits (p / 128), term fr b (p / 128) (p % 128) (Nat.mod_lt _ (by decide)) c := by
  -- Read right to left: overlap c goes to the index (b, n − c, 128·c + r) with n = p / 128 and r = p % 128, and an
  -- index (b, t, k) landing on p comes back to c = k / 128. The two maps are inverse to each other on the two sets,
  -- and overlap c's term is by definition the function at its index.
  symm
  refine Finset.sum_nbij'
    (fun c : Fin 4 => (ix3 b ⟨(p / 128 - c.val) % 2000, Nat.mod_lt _ (by decide)⟩
      ⟨c.val * 128 + p % 128, by have := c.isLt; have := Nat.mod_lt p (show 0 < 128 by decide); omega⟩ : SFr.Idx))
    (fun j : SFr.Idx => (⟨(j 2).val / 128, by have h2 : (j 2).val < 512 := (j 2).isLt; omega⟩ : Fin 4))
    ?_ ?_ ?_ ?_ ?_
  · -- overlap c's index is in batch b and lands on 128·(n − c) + 128·c + r = p
    intro c hc
    simp only [Finset.mem_filter, Finset.mem_univ, true_and, hits] at hc ⊢
    omega
  · -- k < 512 gives k / 128 < 4, and p / 128 = t + k / 128 with t < 2000
    intro j hj
    simp only [Finset.mem_filter, Finset.mem_univ, true_and, hits] at hj ⊢
    have h1 : (j 1).val < 2000 := (j 1).isLt
    have h2 : (j 2).val < 512 := (j 2).isLt
    omega
  · -- (128·c + r) / 128 = c since r < 128
    intro c hc
    simp only [Finset.mem_filter, Finset.mem_univ, true_and, hits] at hc
    refine Fin.ext ?_
    show (c.val * 128 + p % 128) / 128 = c.val
    omega
  · -- coordinate by coordinate: the batch is b, n − k / 128 = t, and 128·(k / 128) + p % 128 = k
    intro j hj
    simp only [Finset.mem_filter, Finset.mem_univ, true_and] at hj
    have h1 : (j 1).val < 2000 := (j 1).isLt
    have h2 : (j 2).val < 512 := (j 2).isLt
    funext a
    match a with
    | ⟨0, _⟩ => exact Fin.ext hj.1.symm
    | ⟨1, _⟩ =>
      refine Fin.ext ?_
      show (p / 128 - (j 2).val / 128) % 2000 = (j 1).val
      omega
    | ⟨2, _⟩ =>
      refine Fin.ext ?_
      show (j 2).val / 128 * 128 + p % 128 = (j 2).val
      omega
  · intro c _
    rfl

end Cert.OverlapSum

end
-- ==== Proof.Spec.lean ====
/-
  What both programs compute, as two functions over literal index sets.

  frames: for batch b, frame t and sample k, the real part's row (b, t, ·) against column k of the cosine basis minus
  the imaginary part's row against column k of the sine basis — the inverse transform of one frame, windowed.
  overlapAdd: output position p = 128·n + r of batch b is the starting value plus the samples 128·c + r of the frames
  n − c, over the overlaps c that exist (see OverlapSum).
-/
import proofs.«172131_j86053964743182_1_alg».proof.Proof.OverlapSum
import Idealize.ShloMosaic.Lib.ValueIdx
import Idealize.ShloMosaic.PureOps.Ideal

noncomputable section

open scoped BigOperators

namespace Cert.Spec

open Idealize.ShloMosaic Idealize.ShloMosaic.ValueIdx Cert.OverlapSum

/-- The spectrogram: batch, frame, frequency bin, (real, imaginary). -/
abbrev SIn : Shape := ⟨4, ![16, 2000, 257, 2]⟩
/-- A synthesis basis: frequency bin, sample within the frame. -/
abbrev SCoef : Shape := ⟨2, ![257, 512]⟩
/-- The signal: batch, one channel, position. -/
abbrev SOut : Shape := ⟨3, ![16, 1, 256384]⟩

/-- Frame t of batch b in the time domain: Σ over bins f of re(b,t,f)·cos(f,k) minus Σ over f of im(b,t,f)·sin(f,k). -/
def frames (x : SIn.Idx → EReal) (cc cs : SCoef.Idx → EReal) : SFr.Idx → EReal := fun i =>
  (∑ f : Fin 257, x (ix4 (⟨(i 0).val, (i 0).isLt⟩ : Fin 16) (⟨(i 1).val, (i 1).isLt⟩ : Fin 2000) f (0 : Fin 2)) * cc (ix2 f (⟨(i 2).val, (i 2).isLt⟩ : Fin 512)))
    - ∑ f : Fin 257, x (ix4 (⟨(i 0).val, (i 0).isLt⟩ : Fin 16) (⟨(i 1).val, (i 1).isLt⟩ : Fin 2000) f (1 : Fin 2)) * cs (ix2 f (⟨(i 2).val, (i 2).isLt⟩ : Fin 512))

/-- The frames laid down every 128 samples and added where they overlap, onto the starting value z. -/
def overlapAdd (z : EReal) (fr : SFr.Idx → EReal) : SOut.Idx → EReal := fun i =>
  z + ∑ c ∈ hits ((i 2).val / 128),
    term fr (⟨(i 0).val, (i 0).isLt⟩ : Fin 16) ((i 2).val / 128) ((i 2).val % 128) (Nat.mod_lt _ (by decide)) c

/-- The whole computation. -/
def result (z : EReal) (x : SIn.Idx → EReal) (cc cs : SCoef.Idx → EReal) : SOut.Idx → EReal :=
  overlapAdd z (frames x cc cs)

end Cert.Spec

end
-- ==== Proof.KFrames.lean ====
/-
  The kernel's region: what the frames array holds after the sixteen grid points.

  Grid point b loads batch b's real and imaginary rows [2000, 257] and both bases [257, 512], multiplies each pair as
  matrices (the change of float format is the identity on the extended reals, and a product into the zero accumulator is
  the plain sum over the contracted axis), subtracts, and stores the [2000, 512] result as block b of the output. The
  blocks tile the output, so after the run the output array is `Spec.frames` of the arguments, index by index.
-/
import proofs.«172131_j86053964743182_1_alg».proof.Proof.Gen.KernelIdeal.Frame
import proofs.«172131_j86053964743182_1_alg».proof.Proof.LibOuterDot
import proofs.«172131_j86053964743182_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Frames

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- Two sums of products, subtracted, are the frames at an index once the factors are the arguments' entries there. -/
theorem frames_of_factors (x : Cert.Spec.SIn.Idx → EReal) (cc cs : Cert.Spec.SCoef.Idx → EReal) (e : Cert.OverlapSum.SFr.Idx)
    (re im c1 c2 : Fin 257 → EReal)
    (hre : ∀ f, re f = x (ix4 (⟨(e 0).val, (e 0).isLt⟩ : Fin 16) (⟨(e 1).val, (e 1).isLt⟩ : Fin 2000) f (0 : Fin 2)))
    (him : ∀ f, im f = x (ix4 (⟨(e 0).val, (e 0).isLt⟩ : Fin 16) (⟨(e 1).val, (e 1).isLt⟩ : Fin 2000) f (1 : Fin 2)))
    (hc1 : ∀ f, c1 f = cc (ix2 f (⟨(e 2).val, (e 2).isLt⟩ : Fin 512)))
    (hc2 : ∀ f, c2 f = cs (ix2 f (⟨(e 2).val, (e 2).isLt⟩ : Fin 512))) :
    (∑ f : Fin 257, re f * c1 f) - ∑ f : Fin 257, im f * c2 f = Cert.Spec.frames x cc cs e := by
  unfold Cert.Spec.frames
  simp only [hre, him, hc1, hc2]

theorem hz3 : (![0, 0, 0] : Fin 3 → Nat) = fun _ => 0 := funext fun a => by fin_cases a <;> rfl
theorem hz2 : (![0, 0] : Fin 2 → Nat) = fun _ => 0 := funext fun a => by fin_cases a <;> rfl

/-- One matrix product of the body at (t, k): the block's row t against the basis' column k. -/
theorem mm_apply (v : Vec Ideal S1x2000x257 .f32) (w : Vec Ideal S257x512 .f32) (t : Fin 2000) (k : Fin 512) :
    matmul (F := Ideal) dot_S2000x257_S257x512_S2000x512_1_0_0_1_n_n none
        (truncf .bf16 (shapeCast S2000x257 v shapeCasts_S1x2000x257_S2000x257) bitsLt_bf16_f32)
        (truncf .bf16 w bitsLt_bf16_f32) (constant S2000x512 .f32 0x00000000#32) (ix2 t k)
      = ∑ f : Fin 257, v (ix3 (0 : Fin 1) t f) * w (ix2 f k) := by
  refine (Cert.LibOuterDot.matmul_zero_ix2 dot_S2000x257_S257x512_S2000x512_1_0_0_1_n_n rfl rfl rfl rfl rfl rfl rfl rfl none _ _ t k).trans ?_
  refine Finset.sum_congr rfl fun f _ => ?_
  refine congrArg (· * w (ix2 f k)) ?_
  refine shapeCast_apply v shapeCasts_S1x2000x257_S2000x257 (ix2 t f) (ix3 (0 : Fin 1) t f) ?_
  rw [Shape.rowMajor_val_three, Shape.rowMajor_val_two]
  show (0 * 2000 + t.val) * 257 + f.val = t.val * 257 + f.val
  omega

/-- The body's stored value at row t, column k of its one block: the two matrix products' entries, subtracted. -/
theorem pay_apply (v0 v3 : Vec Ideal S1x2000x257 .f32) (v6 v8 : Vec Ideal S257x512 .f32) (y : S1x2000x512.Idx)
    (t : Fin 2000) (k : Fin 512) (ht : (y 1).val = t.val) (hk : (y 2).val = k.val) :
    k0_pay1 v0 v3 v6 v8 y
      = (∑ f : Fin 257, v0 (ix3 (0 : Fin 1) t f) * v6 (ix2 f k)) - ∑ f : Fin 257, v3 (ix3 (0 : Fin 1) t f) * v8 (ix2 f k) := by
  unfold k0_pay1
  refine (shapeCast_apply _ shapeCasts_S2000x512_S1x2000x512 y (ix2 t k) ?_).trans ?_
  · rw [Shape.rowMajor_val_three, Shape.rowMajor_val_two]
    show t.val * 512 + k.val = ((y 0).val * 2000 + (y 1).val) * 512 + (y 2).val
    have h0 : (y 0).val < 1 := (y 0).isLt
    omega
  · show _ - _ = _
    rw [mm_apply, mm_apply]

variable (m : (ℓ : Loc nD τ sig) → Buf (Elt Ideal) ℓ) (ρ : Dev nD → PrngReg)

/-- A real part, read out of the spectrogram: the slice at the last axis' position 0, the unit axis dropped. -/
theorem re_apply (x : S16x2000x257x2.Idx → EReal) (j : S16x2000x257.Idx) (k : S16x2000x257x2.Idx)
    (h0 : (k 0).val = (j 0).val) (h1 : (k 1).val = (j 1).val) (h2 : (k 2).val = (j 2).val) (h3 : (k 3).val = 0) :
    shapeCast S16x2000x257 (extractStridedSlice S16x2000x257x1 ![0, 0, 0, 0] x slices_S16x2000x257x2_S16x2000x257x1_0_0_0_0)
        shapeCasts_S16x2000x257x1_S16x2000x257 j = x k := by
  refine (shapeCast_apply _ shapeCasts_S16x2000x257x1_S16x2000x257 j
    (ix4 (⟨(j 0).val, (j 0).isLt⟩ : Fin 16) (⟨(j 1).val, (j 1).isLt⟩ : Fin 2000) (⟨(j 2).val, (j 2).isLt⟩ : Fin 257) (0 : Fin 1)) ?_).trans ?_
  · rw [Shape.rowMajor_val_four, Shape.rowMajor_val_three]
    show (((j 0).val * 2000 + (j 1).val) * 257 + (j 2).val) * 1 + 0 = ((j 0).val * 2000 + (j 1).val) * 257 + (j 2).val
    omega
  · refine extractStridedSlice_apply _ x _ _ k fun a => ?_
    match a with
    | ⟨0, _⟩ => show (k 0).val = 0 + (j 0).val; omega
    | ⟨1, _⟩ => show (k 1).val = 0 + (j 1).val; omega
    | ⟨2, _⟩ => show (k 2).val = 0 + (j 2).val; omega
    | ⟨3, _⟩ => show (k 3).val = 0 + 0; omega

/-- An imaginary part: the slice at the last axis' position 1. -/
theorem im_apply (x : S16x2000x257x2.Idx → EReal) (j : S16x2000x257.Idx) (k : S16x2000x257x2.Idx)
    (h0 : (k 0).val = (j 0).val) (h1 : (k 1).val = (j 1).val) (h2 : (k 2).val = (j 2).val) (h3 : (k 3).val = 1) :
    shapeCast S16x2000x257 (extractStridedSlice S16x2000x257x1 ![0, 0, 0, 1] x slices_S16x2000x257x2_S16x2000x257x1_0_0_0_1)
        shapeCasts_S16x2000x257x1_S16x2000x257 j = x k := by
  refine (shapeCast_apply _ shapeCasts_S16x2000x257x1_S16x2000x257 j
    (ix4 (⟨(j 0).val, (j 0).isLt⟩ : Fin 16) (⟨(j 1).val, (j 1).isLt⟩ : Fin 2000) (⟨(j 2).val, (j 2).isLt⟩ : Fin 257) (0 : Fin 1)) ?_).trans ?_
  · rw [Shape.rowMajor_val_four, Shape.rowMajor_val_three]
    show (((j 0).val * 2000 + (j 1).val) * 257 + (j 2).val) * 1 + 0 = ((j 0).val * 2000 + (j 1).val) * 257 + (j 2).val
    omega
  · refine extractStridedSlice_apply _ x _ _ k fun a => ?_
    match a with
    | ⟨0, _⟩ => show (k 0).val = 0 + (j 0).val; omega
    | ⟨1, _⟩ => show (k 1).val = 0 + (j 1).val; omega
    | ⟨2, _⟩ => show (k 2).val = 0 + (j 2).val; omega
    | ⟨3, _⟩ => show (k 3).val = 1 + 0; omega

/-- The real parts as the region finds them: the host's slice and reshape of the spectrogram. -/
theorem V_re (c : Dev nD) : (V m c main_v1 : S16x2000x257.Idx → EReal)
    = shapeCast S16x2000x257 (extractStridedSlice S16x2000x257x1 ![0, 0, 0, 0] (m ((c : Thread nD τ).loc main_arg0)) slices_S16x2000x257x2_S16x2000x257x1_0_0_0_0)
        shapeCasts_S16x2000x257x1_S16x2000x257 := by
  show StableHlo.after hostOps0 (fun b => m (c, b)) (Proc.devRef .tc main_v1) = _
  after_results
  rfl

/-- The imaginary parts as the region finds them. -/
theorem V_im (c : Dev nD) : (V m c main_v3 : S16x2000x257.Idx → EReal)
    = shapeCast S16x2000x257 (extractStridedSlice S16x2000x257x1 ![0, 0, 0, 1] (m ((c : Thread nD τ).loc main_arg0)) slices_S16x2000x257x2_S16x2000x257x1_0_0_0_1)
        shapeCasts_S16x2000x257x1_S16x2000x257 := by
  show StableHlo.after hostOps0 (fun b => m (c, b)) (Proc.devRef .tc main_v3) = _
  after_results
  rfl

/-- The printed index maps over the grid: point t takes batch t of the data windows and of the output, and the whole
    of each basis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The real-part window's block at point t: batch t of the real parts, which are the spectrogram at position 0 of
    its last axis. -/
theorem iblk0_apply (c : Dev nD) (t : Fin cfg0.N) (y : S1x2000x257.Idx) (k : S16x2000x257x2.Idx)
    (h0 : (k 0).val = t.val) (h1 : (k 1).val = (y 1).val) (h2 : (k 2).val = (y 2).val) (h3 : (k 3).val = 0) :
    (iblk m c 0 t : Vec Ideal S1x2000x257 .f32) y = m ((c : Thread nD τ).loc main_arg0) k := by
  obtain ⟨e0, e1, e2, -⟩ := idx_facts t
  have hy0 : (y 0).val < 1 := (y 0).isLt
  unfold iblk
  rw [View.read_apply]
  show V m c main_v1 _ = _
  rw [V_re m c]
  refine re_apply _ _ k ?_ ?_ ?_ h3
  · show (k 0).val = win0_0.index t (0 : Fin 3) * 1 + 1 * (y 0).val
    omega
  · show (k 1).val = win0_0.index t (1 : Fin 3) * 2000 + 1 * (y 1).val
    omega
  · show (k 2).val = win0_0.index t (2 : Fin 3) * 257 + 1 * (y 2).val
    omega

/-- The imaginary-part window's block at point t. -/
theorem iblk1_apply (c : Dev nD) (t : Fin cfg0.N) (y : S1x2000x257.Idx) (k : S16x2000x257x2.Idx)
    (h0 : (k 0).val = t.val) (h1 : (k 1).val = (y 1).val) (h2 : (k 2).val = (y 2).val) (h3 : (k 3).val = 1) :
    (iblk m c 1 t : Vec Ideal S1x2000x257 .f32) y = m ((c : Thread nD τ).loc main_arg0) k := by
  obtain ⟨-, -, -, e0, e1, e2, -⟩ := idx_facts t
  have hy0 : (y 0).val < 1 := (y 0).isLt
  unfold iblk
  rw [View.read_apply]
  show V m c main_v3 _ = _
  rw [V_im m c]
  refine im_apply _ _ k ?_ ?_ ?_ h3
  · show (k 0).val = win0_1.index t (0 : Fin 3) * 1 + 1 * (y 0).val
    omega
  · show (k 1).val = win0_1.index t (1 : Fin 3) * 2000 + 1 * (y 1).val
    omega
  · show (k 2).val = win0_1.index t (2 : Fin 3) * 257 + 1 * (y 2).val
    omega

/-- The cosine basis' block at any point is the whole basis. -/
theorem iblk2_apply (c : Dev nD) (t : Fin cfg0.N) (y : S257x512.Idx) :
    (iblk m c 2 t : Vec Ideal S257x512 .f32) y = m ((c : Thread nD τ).loc main_arg1) y := by
  obtain ⟨-, -, -, -, -, -, e0, e1, -⟩ := idx_facts t
  unfold iblk
  rw [View.read_apply]
  show V m c main_arg1 _ = _
  rw [V_main_arg1 m c]
  refine congrArg _ (funext fun a => Fin.ext ?_)
  match a with
  | ⟨0, _⟩ => show win0_2.index t (0 : Fin 2) * 257 + 1 * (y 0).val = (y 0).val; omega
  | ⟨1, _⟩ => show win0_2.index t (1 : Fin 2) * 512 + 1 * (y 1).val = (y 1).val; omega

/-- The sine basis' block at any point is the whole basis. -/
theorem iblk3_apply (c : Dev nD) (t : Fin cfg0.N) (y : S257x512.Idx) :
    (iblk m c 3 t : Vec Ideal S257x512 .f32) y = m ((c : Thread nD τ).loc main_arg2) y := by
  obtain ⟨-, -, -, -, -, -, -, -, e0, e1, -⟩ := idx_facts t
  unfold iblk
  rw [View.read_apply]
  show V m c main_arg2 _ = _
  rw [V_main_arg2 m c]
  refine congrArg _ (funext fun a => Fin.ext ?_)
  match a with
  | ⟨0, _⟩ => show win0_3.index t (0 : Fin 2) * 257 + 1 * (y 0).val = (y 0).val; omega
  | ⟨1, _⟩ => show win0_3.index t (1 : Fin 2) * 512 + 1 * (y 1).val = (y 1).val; omega

/-- What point t writes back is block t of the frames. -/
theorem flushed4_eq (c : Dev nD) (t : Fin cfg0.N) :
    (dats m 0 c).flushed 4 t = ((cfg0.win 4).blk t).view.read (Elt Ideal)
      (Cert.Spec.frames (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz3]
  simp only [View.ld_unit_zero (S := S1x2000x257) hz3, View.ld_unit_zero (S := S257x512) hz2]
  obtain ⟨-, -, -, -, -, -, -, -, -, -, o0, o1, o2⟩ := idx_facts t
  funext y
  show k0_pay1 (iblk m c 0 t) (iblk m c 1 t) (iblk m c 2 t) (iblk m c 3 t) y
    = Cert.Spec.frames _ _ _ (((cfg0.win 4).blk t).view.emb y)
  have hy0 : (y 0).val < 1 := (y 0).isLt
  have E0 : ((((cfg0.win 4).blk t).view.emb y) 0).val = t.val := by
    show win0_4.index t (0 : Fin 3) * 1 + 1 * (y 0).val = t.val
    omega
  have E1 : ((((cfg0.win 4).blk t).view.emb y) 1).val = (y 1).val := by
    show win0_4.index t (1 : Fin 3) * 2000 + 1 * (y 1).val = (y 1).val
    omega
  have E2 : ((((cfg0.win 4).blk t).view.emb y) 2).val = (y 2).val := by
    show win0_4.index t (2 : Fin 3) * 512 + 1 * (y 2).val = (y 2).val
    omega
  refine (pay_apply (iblk m c 0 t) (iblk m c 1 t) (iblk m c 2 t) (iblk m c 3 t) y
    ⟨(y 1).val, (y 1).isLt⟩ ⟨(y 2).val, (y 2).isLt⟩ rfl rfl).trans ?_
  refine frames_of_factors _ _ _ (((cfg0.win 4).blk t).view.emb y) _ _ _ _
    (fun f => iblk0_apply m c t _ _ E0 E1 rfl rfl)
    (fun f => iblk1_apply m c t _ _ E0 E1 rfl rfl)
    (fun f => (iblk2_apply m c t _).trans (congrArg _ (congrArg (ix2 f) (Fin.ext E2.symm))))
    (fun f => (iblk3_apply m c t _).trans (congrArg _ (congrArg (ix2 f) (Fin.ext E2.symm))))

/-- An index of the frames array is in point t's block iff each coordinate is in the block's range. -/
theorem mem_blk4 (t : Fin cfg0.N) (i : S16x2000x512.Idx) :
    i ∈ ((cfg0.win 4).blk t).view.set ↔ ∀ a : Fin 3, win0_4.index t a * S1x2000x512.size a ≤ (i a).val
      ∧ (i a).val < win0_4.index t a * S1x2000x512.size a + S1x2000x512.size a := by
  show i ∈ ((View.whole main_v4).slice (win0_4.rect t)).set ↔ _
  rw [View.set_slice_whole, Rect.mem_set_unit]
  exact Iff.rfl

/-- Every index of the frames array is in the block of the point numbered by its batch. -/
theorem cover4 (i : S16x2000x512.Idx) :
    ∃ t : Fin cfg0.N, (cfg0.win 4).flush t = true ∧ i ∈ ((cfg0.win 4).blk t).view.set := by
  have hN : cfg0.N = 16 := N_0
  have h0 : (i 0).val < 16 := (i 0).isLt
  have h1 : (i 1).val < 2000 := (i 1).isLt
  have h2 : (i 2).val < 512 := (i 2).isLt
  have ht : (i 0).val < cfg0.N := by rw [hN]; exact h0
  obtain ⟨-, -, -, -, -, -, -, -, -, -, o0, o1, o2⟩ := idx_facts ⟨(i 0).val, ht⟩
  have o0' : win0_4.index ⟨(i 0).val, ht⟩ (0 : Fin 3) = (i 0).val := o0
  refine ⟨⟨(i 0).val, ht⟩, flush0_4 _, ?_⟩
  rw [mem_blk4]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    omega
  | ⟨1, _⟩ =>
    show win0_4.index ⟨(i 0).val, ht⟩ (1 : Fin 3) * 2000 ≤ (i 1).val ∧ (i 1).val < win0_4.index ⟨(i 0).val, ht⟩ (1 : Fin 3) * 2000 + 2000
    omega
  | ⟨2, _⟩ =>
    show win0_4.index ⟨(i 0).val, ht⟩ (2 : Fin 3) * 512 ≤ (i 2).val ∧ (i 2).val < win0_4.index ⟨(i 0).val, ht⟩ (2 : Fin 3) * 512 + 512
    omega

/-- After the run the frames array is `Spec.frames` of the arguments. -/
theorem final4 (c : Dev nD) : (dats m 0 c).arrAt 4 cfg0.N
    = Cert.Spec.frames (m ((c : Thread nD τ).loc main_arg0)) (m ((c : Thread nD τ).loc main_arg1)) (m ((c : Thread nD τ).loc main_arg2)) :=
  (dats m 0 c).arrAt_eq_of_cover 4 _ (fun t _ => flushed4_eq m c t) cover4

end Cert.KernelIdeal.Frames

end
-- ==== Proof.LibScatterSum.lean ====
/-
  A scatter whose combining function is addition, read at one element.

  The host scatter is a left fold over the update elements in row-major order; each step changes at most the one
  element the update lands on. Read at a fixed element i, the fold only ever adds to the running value at i, and it
  adds exactly the updates whose landing index is i. Addition being commutative and associative, the result is the
  operand's element plus the sum, over all update indices landing on i, of the update's element there.
-/
import Idealize.ShloMosaic.PureOps.ShapeOps
import Mathlib.Algebra.BigOperators.Fin
import Mathlib.Algebra.BigOperators.Group.Finset.Basic
import Mathlib.Algebra.BigOperators.Group.Finset.Defs

noncomputable section

open scoped BigOperators

namespace Cert.LibScatterSum

open Idealize.ShloMosaic

/-- A left fold whose step, read at one element i, adds a term g n to the running value at i: read at i, the fold
    is the start's element plus the sum of the terms along the list. -/
private theorem foldl_apply_of_step {ι β α : Type} [AddCommMonoid α] (step : (ι → α) → β → (ι → α)) (i : ι)
    (g : β → α) (hstep : ∀ r n, step r n i = r i + g n) (l : List β) (x : ι → α) :
    (l.foldl step x) i = x i + (l.map g).sum := by
  induction l generalizing x with
  | nil => simp
  | cons n l ih => rw [List.foldl_cons, ih, hstep, List.map_cons, List.sum_cons, add_assoc]

/-- A scatter that combines by addition in a commutative monoid: element i of the result is element i of the operand
    plus the sum of the update elements whose landing index is i. -/
theorem scatter_add_apply {α : Type} [AddCommMonoid α] {s si u : Shape} {w : ℕ} (d : ScatterDims s si u)
    (x : s.Idx → α) (idx : IVec si w) (upd : u.Idx → α) (i : s.Idx) :
    Host.scatter d (fun a b : α => a + b) x idx upd i
      = x i + ∑ j ∈ Finset.univ.filter (fun j : u.Idx => d.resultIdx? j idx = some i), upd j := by
  unfold Host.scatter
  rw [foldl_apply_of_step _ i
    (fun n => if d.resultIdx? (u.rowMajor.symm n) idx = some i then upd (u.rowMajor.symm n) else 0)]
  · rw [← Fin.sum_univ_def, Finset.sum_filter]
    congr 1
    exact Equiv.sum_comp u.rowMajor.symm (fun j => if d.resultIdx? j idx = some i then upd j else 0)
  · intro r n
    cases h : d.resultIdx? (u.rowMajor.symm n) idx with
    | none => simp
    | some k =>
      by_cases hik : i = k
      · subst hik; simp
      · have hki : k ≠ i := fun e => hik e.symm
        simp [hik, hki]

end Cert.LibScatterSum

end
-- ==== Proof.KScatter.lean ====
/-
  The kernel's four shifted additions, each one scatter of a whole [16, 2000, 128] window placed c rows down in a
  [16, 2003, 128] array (c = 0, 1, 2, 3).

  Update index (b, t, r) lands on (b, t + c, r), always inside the array. So element (b, n, r) of the result is the
  operand's element plus, when c ≤ n and n − c < 2000, the update's element (b, n − c, r): at most one update lands there.
  The update itself is lane block c of the frames: its element (b, t, r) is sample 128·c + r of frame t.
-/
import proofs.«172131_j86053964743182_1_alg».proof.Proof.Gen.KernelIdeal
import proofs.«172131_j86053964743182_1_alg».proof.Proof.LibScatterSum
import Idealize.ShloMosaic.Lib.Pipeline.Value
import Idealize.ShloMosaic.Lib.ValueIdx
import Idealize.ShloMosaic.PureOps.Ideal

noncomputable section

open scoped BigOperators

namespace Cert.KernelIdeal.Tail

open Cert.KernelIdeal Cert.KernelIdeal.Gen Idealize.ShloMosaic Idealize.ShloMosaic.ValueIdx

/-- The scatter's dimension numbers: the update's three axes are the window, placed at a start on the operand's middle axis. -/
abbrev dK : ScatterDims S16x2003x128 S1 S16x2000x128 := scatter_S16x2003x128_S1_S16x2000x128_012_n_1_0

theorem start_0 {w : ℕ} (j : S16x2000x128.Idx) (idx : IVec S1 w) : dK.start j idx 0 = 0 := by
  unfold ScatterDims.start
  rw [dif_neg (show ¬(0 : Fin S16x2003x128.rank) ∈ dK.scatterDimsToOperandDims by decide)]

theorem start_2 {w : ℕ} (j : S16x2000x128.Idx) (idx : IVec S1 w) : dK.start j idx 2 = 0 := by
  unfold ScatterDims.start
  rw [dif_neg (show ¬(2 : Fin S16x2003x128.rank) ∈ dK.scatterDimsToOperandDims by decide)]

theorem start_1 {w : ℕ} (j : S16x2000x128.Idx) (idx : IVec S1 w) (cw : BitVec w) (hidx : ∀ k, idx k = cw) :
    dK.start j idx 1 = cw.toInt := by
  unfold ScatterDims.start
  rw [dif_pos (show (1 : Fin S16x2003x128.rank) ∈ dK.scatterDimsToOperandDims by decide), hidx]

theorem window_0 (j : S16x2000x128.Idx) : dK.window j 0 = (j 0).val := by
  unfold ScatterDims.window
  rw [dif_pos (show (0 : Fin S16x2003x128.rank) ∈ dK.sKept by decide)]
  rfl

theorem window_1 (j : S16x2000x128.Idx) : dK.window j 1 = (j 1).val := by
  unfold ScatterDims.window
  rw [dif_pos (show (1 : Fin S16x2003x128.rank) ∈ dK.sKept by decide)]
  rfl

theorem window_2 (j : S16x2000x128.Idx) : dK.window j 2 = (j 2).val := by
  unfold ScatterDims.window
  rw [dif_pos (show (2 : Fin S16x2003x128.rank) ∈ dK.sKept by decide)]
  rfl

/-- Update index (b, t, r) lands on (b, t + c, r) when the one scatter index is the word of c, c < 4. -/
theorem landing (j : S16x2000x128.Idx) (idx : IVec S1 32) (cw : BitVec 32) (cn : ℕ) (hidx : ∀ k, idx k = cw)
    (hc : cw.toInt = (cn : ℤ)) (hcn : cn < 4) :
    dK.resultIdx? j idx = some (ix3 (⟨(j 0).val, (j 0).isLt⟩ : Fin 16)
      (⟨(j 1).val + cn, by have h1 : (j 1).val < 2000 := (j 1).isLt; omega⟩ : Fin 2003) (⟨(j 2).val, (j 2).isLt⟩ : Fin 128)) := by
  have s0 := start_0 j idx
  have s1 := start_1 j idx cw hidx
  have s2 := start_2 j idx
  have w0 := window_0 j
  have w1 := window_1 j
  have w2 := window_2 j
  have h0 : (j 0).val < 16 := (j 0).isLt
  have h1 : (j 1).val < 2000 := (j 1).isLt
  have h2 : (j 2).val < 128 := (j 2).isLt
  have h : ∀ a, 0 ≤ dK.start j idx a + dK.window j a ∧ dK.start j idx a + dK.window j a < S16x2003x128.size a := by
    intro a
    match a with
    | ⟨0, _⟩ =>
      show 0 ≤ dK.start j idx 0 + (dK.window j 0 : ℤ) ∧ dK.start j idx 0 + (dK.window j 0 : ℤ) < ((16 : ℕ) : ℤ)
      rw [s0, w0]; omega
    | ⟨1, _⟩ =>
      show 0 ≤ dK.start j idx 1 + (dK.window j 1 : ℤ) ∧ dK.start j idx 1 + (dK.window j 1 : ℤ) < ((2003 : ℕ) : ℤ)
      rw [s1, w1, hc]; omega
    | ⟨2, _⟩ =>
      show 0 ≤ dK.start j idx 2 + (dK.window j 2 : ℤ) ∧ dK.start j idx 2 + (dK.window j 2 : ℤ) < ((128 : ℕ) : ℤ)
      rw [s2, w2]; omega
  unfold ScatterDims.resultIdx?
  rw [dif_pos h]
  refine congrArg some (funext fun a => Fin.ext ?_)
  match a with
  | ⟨0, _⟩ =>
    show (dK.start j idx 0 + (dK.window j 0 : ℤ)).toNat = (j 0).val
    rw [s0, w0]; omega
  | ⟨1, _⟩ =>
    show (dK.start j idx 1 + (dK.window j 1 : ℤ)).toNat = (j 1).val + cn
    rw [s1, w1, hc]; omega
  | ⟨2, _⟩ =>
    show (dK.start j idx 2 + (dK.window j 2 : ℤ)).toNat = (j 2).val
    rw [s2, w2]; omega

/-- The updates landing on (b, n, r): the one at (b, n − c, r) when that frame exists, none otherwise. -/
theorem sum_landed (upd : S16x2000x128.Idx → EReal) (idx : IVec S1 32) (cw : BitVec 32) (cn : ℕ) (hidx : ∀ k, idx k = cw)
    (hc : cw.toInt = (cn : ℤ)) (hcn : cn < 4) (b : Fin 16) (n : Fin 2003) (r : Fin 128) :
    ∑ j ∈ Finset.univ.filter (fun j : S16x2000x128.Idx => dK.resultIdx? j idx = some (ix3 b n r)), upd j
      = if cn ≤ n.val ∧ n.val - cn < 2000 then upd (ix3 b (⟨(n.val - cn) % 2000, Nat.mod_lt _ (by decide)⟩ : Fin 2000) r) else 0 := by
  have key : ∀ j : S16x2000x128.Idx, dK.resultIdx? j idx = some (ix3 b n r)
      ↔ (j 0).val = b.val ∧ (j 1).val + cn = n.val ∧ (j 2).val = r.val := by
    intro j
    rw [landing j idx cw cn hidx hc hcn]
    constructor
    · intro h
      have e := Option.some.inj h
      exact ⟨congrArg (fun i : S16x2003x128.Idx => (i 0).val) e, congrArg (fun i : S16x2003x128.Idx => (i 1).val) e,
        congrArg (fun i : S16x2003x128.Idx => (i 2).val) e⟩
    · rintro ⟨e0, e1, e2⟩
      refine congrArg some (funext fun a => Fin.ext ?_)
      match a with
      | ⟨0, _⟩ => exact e0
      | ⟨1, _⟩ => exact e1
      | ⟨2, _⟩ => exact e2
  by_cases hcond : cn ≤ n.val ∧ n.val - cn < 2000
  · rw [if_pos hcond]
    have hmod : (n.val - cn) % 2000 = n.val - cn := Nat.mod_eq_of_lt hcond.2
    rw [Finset.sum_eq_single (ix3 b (⟨(n.val - cn) % 2000, Nat.mod_lt _ (by decide)⟩ : Fin 2000) r)]
    · intro j hj hne
      exfalso; apply hne
      obtain ⟨e0, e1, e2⟩ := (key j).mp (Finset.mem_filter.mp hj).2
      funext a; apply Fin.ext
      match a with
      | ⟨0, _⟩ => exact e0
      | ⟨1, _⟩ => show (j 1).val = (n.val - cn) % 2000; omega
      | ⟨2, _⟩ => exact e2
    · intro hnot
      exfalso; apply hnot
      refine Finset.mem_filter.mpr ⟨Finset.mem_univ _, (key _).mpr ⟨rfl, ?_, rfl⟩⟩
      show (n.val - cn) % 2000 + cn = n.val
      omega
  · rw [if_neg hcond]
    refine Finset.sum_eq_zero fun j hj => ?_
    exfalso; apply hcond
    obtain ⟨e0, e1, e2⟩ := (key j).mp (Finset.mem_filter.mp hj).2
    have h1 : (j 1).val < 2000 := (j 1).isLt
    omega

/-- Lane block c of the frames, as the host cuts it: reshape to [16, 2000, 4, 128], slice position c of the third axis,
    drop it. Its element (b, t, r) is sample 128·c + r of frame t of batch b. -/
theorem upd_apply (fr : S16x2000x512.Idx → EReal) (off : Fin 4 → ℕ) (h : S16x2000x4x128.Slices off S16x2000x1x128)
    (cn : ℕ) (hcn : cn < 4) (o0 : off 0 = 0) (o1 : off 1 = 0) (o2 : off 2 = cn) (o3 : off 3 = 0)
    (b : Fin 16) (t : Fin 2000) (r : Fin 128) :
    shapeCast S16x2000x128 (extractStridedSlice S16x2000x1x128 off
        (shapeCast S16x2000x4x128 fr shapeCasts_S16x2000x512_S16x2000x4x128) h) shapeCasts_S16x2000x1x128_S16x2000x128 (ix3 b t r)
      = fr (ix3 b t (⟨cn * 128 + r.val, by have := r.isLt; omega⟩ : Fin 512)) := by
  refine (shapeCast_apply _ shapeCasts_S16x2000x1x128_S16x2000x128 (ix3 b t r) (ix4 b t (0 : Fin 1) r) ?_).trans ?_
  · rw [Shape.rowMajor_val_four, Shape.rowMajor_val_three]
    show ((b.val * 2000 + t.val) * 1 + 0) * 128 + r.val = (b.val * 2000 + t.val) * 128 + r.val
    omega
  refine (extractStridedSlice_apply off _ h (ix4 b t (0 : Fin 1) r) (ix4 b t (⟨cn, hcn⟩ : Fin 4) r) (fun a => ?_)).trans ?_
  · match a with
    | ⟨0, _⟩ => show b.val = off 0 + b.val; omega
    | ⟨1, _⟩ => show t.val = off 1 + t.val; omega
    | ⟨2, _⟩ => show cn = off 2 + 0; omega
    | ⟨3, _⟩ => show r.val = off 3 + r.val; omega
  · refine shapeCast_apply fr shapeCasts_S16x2000x512_S16x2000x4x128 _ _ ?_
    rw [Shape.rowMajor_val_three, Shape.rowMajor_val_four]
    show (b.val * 2000 + t.val) * 512 + (cn * 128 + r.val) = ((b.val * 2000 + t.val) * 4 + cn) * 128 + r.val
    omega

end Cert.KernelIdeal.Tail

end
-- ==== Proof.KTail.lean ====
/-
  The kernel's host lines after the region, as one function of the frames array, read at an output position.

  The frames are cut into four lane blocks of 128; block c is added into a zero [16, 2003, 128] array c rows down
  (c = 0, 1, 2, 3, one after the other); the result is flattened to [16, 256384] and given a unit channel axis. Position
  p = 128·n + r of batch b is therefore element (b, n, r) of the last array: zero plus, in the order c = 0, 1, 2, 3, sample
  128·c + r of frame n − c where that frame exists — `Spec.overlapAdd` of the frames.
-/
import proofs.«172131_j86053964743182_1_alg».proof.Proof.KScatter
import proofs.«172131_j86053964743182_1_alg».proof.Proof.Spec
import Mathlib.Algebra.BigOperators.Fin

noncomputable section

open scoped BigOperators

namespace Cert.KernelIdeal.Tail

open Cert.KernelIdeal Cert.KernelIdeal.Gen Idealize.ShloMosaic Idealize.ShloMosaic.ValueIdx

/-- Lane block number `off 2` of the frames. -/
abbrev laneBlock (fr : FVec Ideal S16x2000x512 .f32) (off : Fin 4 → ℕ) (h : S16x2000x4x128.Slices off S16x2000x1x128) :
    FVec Ideal S16x2000x128 .f32 :=
  shapeCast S16x2000x128 (extractStridedSlice S16x2000x1x128 off
    (shapeCast S16x2000x4x128 fr shapeCasts_S16x2000x512_S16x2000x4x128) h) shapeCasts_S16x2000x1x128_S16x2000x128

/-- The one scatter index: the word c. -/
abbrev startWord (cw : BitVec 32) : IVec S1 32 := broadcastInDim S1 ![] bcast_S_S1 (constantI S_ 32 cw)

/-- The zero array the blocks are added into. -/
abbrev acc0 : FVec Ideal S16x2003x128 .f32 :=
  broadcastInDim S16x2003x128 ![] bcast_S_S16x2003x128 (constant (F := Ideal) S_ .f32 0x00000000#32)
abbrev acc1 (fr : FVec Ideal S16x2000x512 .f32) : FVec Ideal S16x2003x128 .f32 :=
  Host.scatter scatter_S16x2003x128_S1_S16x2000x128_012_n_1_0 FloatOps.addf acc0 (startWord 0#32)
    (laneBlock fr ![0, 0, 0, 0] slices_S16x2000x4x128_S16x2000x1x128_0_0_0_0)
abbrev acc2 (fr : FVec Ideal S16x2000x512 .f32) : FVec Ideal S16x2003x128 .f32 :=
  Host.scatter scatter_S16x2003x128_S1_S16x2000x128_012_n_1_0 FloatOps.addf (acc1 fr) (startWord 1#32)
    (laneBlock fr ![0, 0, 1, 0] slices_S16x2000x4x128_S16x2000x1x128_0_0_1_0)
abbrev acc3 (fr : FVec Ideal S16x2000x512 .f32) : FVec Ideal S16x2003x128 .f32 :=
  Host.scatter scatter_S16x2003x128_S1_S16x2000x128_012_n_1_0 FloatOps.addf (acc2 fr) (startWord 2#32)
    (laneBlock fr ![0, 0, 2, 0] slices_S16x2000x4x128_S16x2000x1x128_0_0_2_0)
abbrev acc4 (fr : FVec Ideal S16x2000x512 .f32) : FVec Ideal S16x2003x128 .f32 :=
  Host.scatter scatter_S16x2003x128_S1_S16x2000x128_012_n_1_0 FloatOps.addf (acc3 fr) (startWord 3#32)
    (laneBlock fr ![0, 0, 3, 0] slices_S16x2000x4x128_S16x2000x1x128_0_0_3_0)

/-- The host lines after the region, as one function of the frames array. -/
def tailK (fr : FVec Ideal S16x2000x512 .f32) : FVec Ideal S16x1x256384 .f32 :=
  broadcastInDim S16x1x256384 ![0, 2] bcast_S16x256384_S16x1x256384_0_2
    (shapeCast S16x256384 (acc4 fr) shapeCasts_S16x2003x128_S16x256384)

theorem startWord_apply (cw : BitVec 32) (k : S1.Idx) : startWord cw k = cw :=
  broadcastInDim_apply _ bcast_S_S1 _ k ix0 (fun a => a.elim0)

/-- One shifted addition at (b, n, r): what was there plus the block's element (b, n − c, r) when that frame exists. -/
theorem step_apply (x : S16x2003x128.Idx → EReal) (cw : BitVec 32) (cn : ℕ) (hc : cw.toInt = (cn : ℤ)) (hcn : cn < 4)
    (fr : S16x2000x512.Idx → EReal) (off : Fin 4 → ℕ) (h : S16x2000x4x128.Slices off S16x2000x1x128)
    (o0 : off 0 = 0) (o1 : off 1 = 0) (o2 : off 2 = cn) (o3 : off 3 = 0) (b : Fin 16) (n : Fin 2003) (r : Fin 128) :
    Host.scatter scatter_S16x2003x128_S1_S16x2000x128_012_n_1_0 (FloatOps.addf (F := Ideal) (φ := .f32)) x (startWord cw)
        (laneBlock fr off h) (ix3 b n r)
      = x (ix3 b n r) + (if cn ≤ n.val ∧ n.val - cn < 2000
          then Cert.OverlapSum.term fr b n.val r.val r.isLt (⟨cn, hcn⟩ : Fin 4) else 0) := by
  show Host.scatter dK (fun a b : EReal => a + b) x (startWord cw) (laneBlock fr off h) (ix3 b n r) = _
  rw [Cert.LibScatterSum.scatter_add_apply,
    sum_landed (laneBlock fr off h) (startWord cw) cw cn (startWord_apply cw) hc hcn b n r]
  refine congrArg (x (ix3 b n r) + ·) ?_
  refine if_congr Iff.rfl ?_ rfl
  exact upd_apply fr off h cn hcn o0 o1 o2 o3 b _ r

/-- The zero array at any element. -/
theorem acc0_apply (j : S16x2003x128.Idx) : acc0 j = FloatOps.ofBits (F := Ideal) .f32 0x00000000#32 :=
  broadcastInDim_apply _ bcast_S_S16x2003x128 _ j ix0 (fun a => a.elim0)

/-- Overlap c's contribution at (b, n, r): sample 128·c + r of frame n − c, zero when that frame does not exist. -/
def contrib (fr : S16x2000x512.Idx → EReal) (b : Fin 16) (n : Fin 2003) (r : Fin 128) (c : Fin 4) : EReal :=
  if c.val ≤ n.val ∧ n.val - c.val < 2000 then Cert.OverlapSum.term fr b n.val r.val r.isLt c else 0

/-- The sum over the overlaps that exist is the sum of the four contributions. -/
theorem sum_hits_eq (fr : S16x2000x512.Idx → EReal) (b : Fin 16) (n : Fin 2003) (r : Fin 128) :
    ∑ c ∈ Cert.OverlapSum.hits n.val, Cert.OverlapSum.term fr b n.val r.val r.isLt c
      = contrib fr b n r 0 + contrib fr b n r 1 + contrib fr b n r 2 + contrib fr b n r 3 := by
  unfold Cert.OverlapSum.hits
  rw [Finset.sum_filter, Fin.sum_univ_four]
  rfl

/-- The four shifted additions at (b, n, r): zero plus the overlaps that exist, c = 0, 1, 2, 3 in this order. -/
theorem acc4_apply (fr : S16x2000x512.Idx → EReal) (b : Fin 16) (n : Fin 2003) (r : Fin 128) :
    acc4 fr (ix3 b n r) = FloatOps.ofBits (F := Ideal) .f32 0x00000000#32
      + ∑ c ∈ Cert.OverlapSum.hits n.val, Cert.OverlapSum.term fr b n.val r.val r.isLt c := by
  have e1 : acc1 fr (ix3 b n r) = acc0 (ix3 b n r) + contrib fr b n r 0 :=
    step_apply acc0 0#32 0 (by decide) (by decide) fr ![0, 0, 0, 0] slices_S16x2000x4x128_S16x2000x1x128_0_0_0_0 rfl rfl rfl rfl b n r
  have e2 : acc2 fr (ix3 b n r) = acc1 fr (ix3 b n r) + contrib fr b n r 1 :=
    step_apply (acc1 fr) 1#32 1 (by decide) (by decide) fr ![0, 0, 1, 0] slices_S16x2000x4x128_S16x2000x1x128_0_0_1_0 rfl rfl rfl rfl b n r
  have e3 : acc3 fr (ix3 b n r) = acc2 fr (ix3 b n r) + contrib fr b n r 2 :=
    step_apply (acc2 fr) 2#32 2 (by decide) (by decide) fr ![0, 0, 2, 0] slices_S16x2000x4x128_S16x2000x1x128_0_0_2_0 rfl rfl rfl rfl b n r
  have e4 : acc4 fr (ix3 b n r) = acc3 fr (ix3 b n r) + contrib fr b n r 3 :=
    step_apply (acc3 fr) 3#32 3 (by decide) (by decide) fr ![0, 0, 3, 0] slices_S16x2000x4x128_S16x2000x1x128_0_0_3_0 rfl rfl rfl rfl b n r
  rw [e4, e3, e2, e1, acc0_apply, sum_hits_eq]
  simp only [add_assoc]

/-- The host lines after the region at an output position: the overlap-add of the frames. -/
theorem tailK_apply (fr : S16x2000x512.Idx → EReal) (i : S16x1x256384.Idx) :
    tailK fr i = Cert.Spec.overlapAdd (FloatOps.ofBits (F := Ideal) .f32 0x00000000#32) fr i := by
  have h0 : (i 0).val < 16 := (i 0).isLt
  have h1 : (i 1).val < 1 := (i 1).isLt
  have h2 : (i 2).val < 256384 := (i 2).isLt
  unfold tailK
  refine (broadcastInDim_apply _ bcast_S16x256384_S16x1x256384_0_2 _ i
    (ix2 (⟨(i 0).val, h0⟩ : Fin 16) (⟨(i 2).val, h2⟩ : Fin 256384)) (fun a => ?_)).trans ?_
  · match a with
    | ⟨0, _⟩ => show (i 0).val = if (16 : ℕ) = 1 then 0 else (i 0).val; rw [if_neg (by decide)]
    | ⟨1, _⟩ => show (i 2).val = if (256384 : ℕ) = 1 then 0 else (i 2).val; rw [if_neg (by decide)]
  refine (shapeCast_apply _ shapeCasts_S16x2003x128_S16x256384 _
    (ix3 (⟨(i 0).val, h0⟩ : Fin 16) (⟨(i 2).val / 128, by omega⟩ : Fin 2003) (⟨(i 2).val % 128, Nat.mod_lt _ (by decide)⟩ : Fin 128)) ?_).trans ?_
  · rw [Shape.rowMajor_val_three, Shape.rowMajor_val_two]
    show ((i 0).val * 2003 + (i 2).val / 128) * 128 + (i 2).val % 128 = (i 0).val * 256384 + (i 2).val
    omega
  · exact acc4_apply fr _ _ _

end Cert.KernelIdeal.Tail

end
-- ==== Proof.KRun.lean ====
/-
  The kernel program's run, read: its result array ends at `Spec.result` of the arguments, which end unchanged.

  The region leaves the frames array at `Spec.frames` of the arguments (KFrames); the host lines after it are one
  function of that array (KTail), which at every output position is the overlap-add of the frames.
-/
import proofs.«172131_j86053964743182_1_alg».proof.Proof.KFrames
import proofs.«172131_j86053964743182_1_alg».proof.Proof.KTail

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The frames array as the host lines after the region find it. -/
theorem tail_frames (c : Dev nD) :
    Pipeline.withArrays (cfgs 0).spec c (V0 m c) (fun w => (dats m 0 c).arrAt w (cfgs 0).N) (Proc.devRef .tc main_v4)
      = Cert.Spec.frames (m ((c : Thread nD τ).loc main_arg0)) (m ((c : Thread nD τ).loc main_arg1)) (m ((c : Thread nD τ).loc main_arg2)) :=
  (Pipeline.withArrays_arr spec0 launch0.win.arr_inj c _ _ 4).trans (Frames.final4 m c)

set_option maxHeartbeats 4000000 in
/-- The result buffer after the host lines: their one function of the frames. -/
theorem tail_eq (c : Dev nD) : Pipeline.afterTail₀ cfgs (dats m) 0 (V0 m) [hostOps1] c main_v24
    = Tail.tailK (Cert.Spec.frames (m ((c : Thread nD τ).loc main_arg0)) (m ((c : Thread nD τ).loc main_arg1)) (m ((c : Thread nD τ).loc main_arg2))) := by
  refine Eq.trans ?_ (congrArg Tail.tailK (tail_frames m c))
  unfold Pipeline.afterTail₀
  show StableHlo.after hostOps1 _ (Proc.devRef .tc main_v24) = _
  after_results
  rfl

/-- Every weakly fair execution ends with the result at the overlap-add of the frames and the arguments unchanged. -/
theorem run : θ_run defs (onTc (τ := τ) (main (F := Ideal))) ⟨m, fun _ => 0, ρ⟩ fun r => ∀ c : Dev nD,
      r.2.mem ((c.tc : Thread nD τ).loc main_v24)
        = Cert.Spec.result (FloatOps.ofBits (F := Ideal) .f32 0x00000000#32) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v24 (Pipeline.mem_restRefs_of main_v24 (by decide) (by decide))).trans
        ((tail_eq m c).trans (funext fun i => Tail.tailK_apply _ i)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩)
    (run_main m ρ)

end Cert.KernelIdeal.Run

end
-- ==== Proof.RValue.lean ====
/-
  The reference, read at an index.

  Its frames are the two contractions over the 257 bins, subtracted: `Spec.frames`. Its scatter indices are the words
  128·t + k, computed in 32-bit arithmetic that never wraps (128·1999 + 511 is far below 2³¹) and never negative, so the
  wrap-around branch of the index normalisation is not taken. Update (b, t, k) therefore lands on (b, 128·t + k), and
  the accumulating scatter's value at (b, p) is zero plus the sum of the frames' samples with 128·t + k = p: by the
  overlap count, `Spec.overlapAdd`.
-/
import proofs.«172131_j86053964743182_1_alg».proof.Proof.Gen.ReferenceIdeal.Read
import proofs.«172131_j86053964743182_1_alg».proof.Proof.Spec
import Idealize.ShloMosaic.Lib.StableHlo.Predicate
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx

/-- The real parts at (b, t, f): the spectrogram at (b, t, f, 0). -/
theorem re_apply (x0 : S16x2000x257x2.Idx → EReal) (i : S16x2000x512.Idx) (f : Fin 257) :
    val_main_v1 (F := Ideal) x0 (lidx_main_v4 i f)
      = x0 (ix4 (⟨(i 0).val, (i 0).isLt⟩ : Fin 16) (⟨(i 1).val, (i 1).isLt⟩ : Fin 2000) f (0 : Fin 2)) := by
  have h0 : (i 0).val < 16 := (i 0).isLt
  have h1 : (i 1).val < 2000 := (i 1).isLt
  have hf : f.val < 257 := f.isLt
  rw [val_main_v1_apply, val_main_v0_apply]
  refine congrArg x0 (funext fun a => Fin.ext ?_)
  match a with
  | ⟨0, _⟩ => show (((i 0).val * 2000 + (i 1).val) * 257 + f.val) / 514000 = (i 0).val; omega
  | ⟨1, _⟩ => show (((i 0).val * 2000 + (i 1).val) * 257 + f.val) / 257 % 2000 = (i 1).val; omega
  | ⟨2, _⟩ => show (((i 0).val * 2000 + (i 1).val) * 257 + f.val) / 1 % 257 = f.val; omega
  | ⟨3, _⟩ => rfl

/-- The imaginary parts at (b, t, f): the spectrogram at (b, t, f, 1). -/
theorem im_apply (x0 : S16x2000x257x2.Idx → EReal) (i : S16x2000x512.Idx) (f : Fin 257) :
    val_main_v3 (F := Ideal) x0 (lidx_main_v5 i f)
      = x0 (ix4 (⟨(i 0).val, (i 0).isLt⟩ : Fin 16) (⟨(i 1).val, (i 1).isLt⟩ : Fin 2000) f (1 : Fin 2)) := by
  have h0 : (i 0).val < 16 := (i 0).isLt
  have h1 : (i 1).val < 2000 := (i 1).isLt
  have hf : f.val < 257 := f.isLt
  rw [val_main_v3_apply, val_main_v2_apply]
  refine congrArg x0 (funext fun a => Fin.ext ?_)
  match a with
  | ⟨0, _⟩ => show (((i 0).val * 2000 + (i 1).val) * 257 + f.val) / 514000 = (i 0).val; omega
  | ⟨1, _⟩ => show (((i 0).val * 2000 + (i 1).val) * 257 + f.val) / 257 % 2000 = (i 1).val; omega
  | ⟨2, _⟩ => show (((i 0).val * 2000 + (i 1).val) * 257 + f.val) / 1 % 257 = f.val; omega
  | ⟨3, _⟩ => rfl

/-- The reference's frames are `Spec.frames`. -/
theorem frames_eq (x0 : S16x2000x257x2.Idx → EReal) (x1 x2 : S257x512.Idx → EReal) :
    val_main_v6 (F := Ideal) x0 x1 x2 = Cert.Spec.frames x0 x1 x2 := by
  funext i
  rw [val_main_v6_apply, val_main_v4_apply, val_main_v5_apply]
  unfold Cert.Spec.frames
  show _ - _ = _ - _
  refine congrArg₂ (· - ·) (Finset.sum_congr rfl fun f _ => ?_) (Finset.sum_congr rfl fun f _ => ?_)
  · rw [re_apply]
    refine congrArg (_ * ·) (congrArg x1 (funext fun a => Fin.ext ?_))
    match a with
    | ⟨0, _⟩ => rfl
    | ⟨1, _⟩ => rfl
  · rw [im_apply]
    refine congrArg (_ * ·) (congrArg x2 (funext fun a => Fin.ext ?_))
    match a with
    | ⟨0, _⟩ => rfl
    | ⟨1, _⟩ => rfl

/-- The scatter index of frame t, sample k: the word 128·t + k, read as a signed number. -/
theorem index_toInt (j : S2000x512x1.Idx) : (val_main_v22 (F := Ideal) j).toInt = ((j 0).val * 128 + (j 1).val : ℕ) := by
  have h0 : (j 0).val < 2000 := (j 0).isLt
  have h1 : (j 1).val < 512 := (j 1).isLt
  have hw : val_main_v15 (F := Ideal) (idx_main_v22 j) = BitVec.ofNat 32 ((j 0).val * 128 + (j 1).val) := by
    rw [val_main_v15_apply, val_main_v13_apply, val_main_v14_apply, val_main_v10_apply, val_main_v8_apply, val_main_v9_apply,
      val_main_v7_apply, val_main_c_apply, val_main_v12_apply, val_main_v11_apply]
    show IntOp.addi (IntOp.muli (BitVec.ofNat 32 (j 0).val) (BitVec.ofNat 32 128)) (BitVec.ofNat 32 (j 1).val) = _
    unfold IntOp.addi IntOp.muli
    rw [← BitVec.ofNat_mul, ← BitVec.ofNat_add]
  have hsmall : (BitVec.ofNat 32 ((j 0).val * 128 + (j 1).val)).toNat < 2 ^ 31 := by
    rw [BitVec.toNat_ofNat]; omega
  have hneg : ¬ IntOp.cmpi .slt (BitVec.ofNat 32 ((j 0).val * 128 + (j 1).val)) (0#32) = (1 : BitVec 1) := fun h =>
    absurd ((StableHlo.Predicate.slt_iff_toNat hsmall (by decide)).mp h) (by simp)
  rw [val_main_v22_apply, val_main_v21_apply, val_main_v18_apply, val_main_v17_apply, val_main_c_0_apply, hw]
  unfold Scalar.select
  rw [if_neg hneg]
  exact StableHlo.Predicate.toInt_ofNat_small _ (by omega)

/-- The accumulating scatter's dimension numbers: the update's batch axis is the window, and each (frame, sample) has its
    own start on the operand's position axis. -/
abbrev dR : ScatterDims S16x256384 S2000x512x1 S16x2000x512 := scatter_S16x256384_S2000x512x1_S16x2000x512_0_1_1_2

theorem startR_0 {w : ℕ} (j : S16x2000x512.Idx) (idx : IVec S2000x512x1 w) : dR.start j idx 0 = 0 := by
  unfold ScatterDims.start
  rw [dif_neg (show ¬(0 : Fin S16x256384.rank) ∈ dR.scatterDimsToOperandDims by decide)]

theorem startR_1 {w : ℕ} (j : S16x2000x512.Idx) (idx : IVec S2000x512x1 w) :
    dR.start j idx 1 = (idx (ix3 (⟨(j 1).val, (j 1).isLt⟩ : Fin 2000) (⟨(j 2).val, (j 2).isLt⟩ : Fin 512) (0 : Fin 1))).toInt := by
  unfold ScatterDims.start
  rw [dif_pos (show (1 : Fin S16x256384.rank) ∈ dR.scatterDimsToOperandDims by decide)]
  refine congrArg (fun k => (idx k).toInt) (funext fun a => Fin.ext ?_)
  match a with
  | ⟨0, _⟩ => rfl
  | ⟨1, _⟩ => rfl
  | ⟨2, _⟩ => rfl

theorem windowR_0 (j : S16x2000x512.Idx) : dR.window j 0 = (j 0).val := by
  unfold ScatterDims.window
  rw [dif_pos (show (0 : Fin S16x256384.rank) ∈ dR.sKept by decide)]
  rfl

theorem windowR_1 (j : S16x2000x512.Idx) : dR.window j 1 = 0 := by
  unfold ScatterDims.window
  rw [dif_neg (show ¬(1 : Fin S16x256384.rank) ∈ dR.sKept by decide)]

/-- Update (b, t, k) lands on (b, 128·t + k). -/
theorem landingR (j : S16x2000x512.Idx) :
    dR.resultIdx? j (val_main_v22 (F := Ideal)) = some (ix2 (⟨(j 0).val, (j 0).isLt⟩ : Fin 16)
      (⟨(j 1).val * 128 + (j 2).val, by have h1 : (j 1).val < 2000 := (j 1).isLt; have h2 : (j 2).val < 512 := (j 2).isLt; omega⟩ : Fin 256384)) := by
  have s0 := startR_0 j (val_main_v22 (F := Ideal))
  have s1 : dR.start j (val_main_v22 (F := Ideal)) 1 = (((j 1).val * 128 + (j 2).val : ℕ) : ℤ) :=
    (startR_1 j (val_main_v22 (F := Ideal))).trans (index_toInt _)
  have w0 := windowR_0 j
  have w1 := windowR_1 j
  have h0 : (j 0).val < 16 := (j 0).isLt
  have h1 : (j 1).val < 2000 := (j 1).isLt
  have h2 : (j 2).val < 512 := (j 2).isLt
  have h : ∀ a, 0 ≤ dR.start j (val_main_v22 (F := Ideal)) a + dR.window j a
      ∧ dR.start j (val_main_v22 (F := Ideal)) a + dR.window j a < S16x256384.size a := by
    intro a
    match a with
    | ⟨0, _⟩ =>
      show 0 ≤ dR.start j (val_main_v22 (F := Ideal)) 0 + (dR.window j 0 : ℤ)
        ∧ dR.start j (val_main_v22 (F := Ideal)) 0 + (dR.window j 0 : ℤ) < ((16 : ℕ) : ℤ)
      rw [s0, w0]; omega
    | ⟨1, _⟩ =>
      show 0 ≤ dR.start j (val_main_v22 (F := Ideal)) 1 + (dR.window j 1 : ℤ)
        ∧ dR.start j (val_main_v22 (F := Ideal)) 1 + (dR.window j 1 : ℤ) < ((256384 : ℕ) : ℤ)
      rw [s1, w1]; omega
  unfold ScatterDims.resultIdx?
  rw [dif_pos h]
  refine congrArg some (funext fun a => Fin.ext ?_)
  match a with
  | ⟨0, _⟩ =>
    show (dR.start j (val_main_v22 (F := Ideal)) 0 + (dR.window j 0 : ℤ)).toNat = (j 0).val
    rw [s0, w0]; omega
  | ⟨1, _⟩ =>
    show (dR.start j (val_main_v22 (F := Ideal)) 1 + (dR.window j 1 : ℤ)).toNat = (j 1).val * 128 + (j 2).val
    rw [s1, w1]; omega

/-- The reference's result is `Spec.result` of its arguments. -/
theorem result_eq (x0 : S16x2000x257x2.Idx → EReal) (x1 x2 : S257x512.Idx → EReal) :
    val_main_v24 (F := Ideal) x0 x1 x2 = Cert.Spec.result (FloatOps.ofBits (F := Ideal) .f32 0x00000000#32) x0 x1 x2 := by
  funext i
  have h0 : (i 0).val < 16 := (i 0).isLt
  have h2 : (i 2).val < 256384 := (i 2).isLt
  rw [val_main_v24_apply]
  unfold val_main_v23 Host.scatterAdd
  rw [Ideal.hostScatterAdd_def, frames_eq]
  unfold Ideal.hostScatterAdd Cert.Spec.result Cert.Spec.overlapAdd
  refine congrArg₂ (· + ·) ?_ ?_
  · rw [val_main_v16_apply, val_main_cst_apply]
  · rw [← Cert.OverlapSum.sum_landing (Cert.Spec.frames x0 x1 x2) (⟨(i 0).val, h0⟩ : Fin 16) (i 2).val]
    refine Finset.sum_congr (Finset.filter_congr fun j _ => ?_) (fun _ _ => rfl)
    rw [landingR j]
    constructor
    · intro h
      have e := Option.some.inj h
      exact ⟨congrArg (fun k : S16x256384.Idx => (k 0).val) e, congrArg (fun k : S16x256384.Idx => (k 1).val) e⟩
    · rintro ⟨e0, e1⟩
      refine congrArg some (funext fun a => Fin.ext ?_)
      match a with
      | ⟨0, _⟩ => exact e0
      | ⟨1, _⟩ => exact e1

end Cert.ReferenceIdeal.Hand

end
-- ==== Proof.lean ====
/-
  An inverse short-time Fourier transform by overlap-add, two ways, equal over the extended reals.

  Both programs split the spectrogram [16, 2000, 257, 2] into real and imaginary parts, turn every frame into 512 time
  samples — real part against a cosine basis minus imaginary part against a sine basis, a sum over the 257 bins — and
  add the frames into one signal per batch, frame t starting at position 128·t.

  The kernel forms the frames one batch at a time as two matrix products [2000, 257] × [257, 512] (its reduced-precision
  casts are the identity on the extended reals, and a product into the zero accumulator is the plain sum over the bins),
  then adds the four 128-sample quarters of every frame into a [16, 2003, 128] array, quarter c shifted down c rows. The
  reference forms the frames as two contractions over the bins and adds sample k of frame t at position 128·t + k with
  one accumulating scatter. Position p = 128·n + r receives sample 128·c + r of frame n − c for exactly the c in
  0..3 with 0 ≤ n − c < 2000, on either road; addition of extended reals is commutative and associative, so the
  order of the additions does not matter and no finiteness of the inputs is used.

  Both results are shown equal to `Spec.result` (Proof/Spec.lean): the kernel's through its frame run, the blocks of
  its frames array and its host lines read at an index (Proof/KFrames.lean, KScatter.lean, KTail.lean, KRun.lean), the
  reference's through its run read one operation at a time (Proof/RValue.lean). The counting of overlaps is
  Proof/OverlapSum.lean; a scatter that adds, read at one element, is Proof/LibScatterSum.lean.
-/
import proofs.«172131_j86053964743182_1_alg».proof.Defs
import proofs.«172131_j86053964743182_1_alg».proof.Proof.Gen.Kernel
import proofs.«172131_j86053964743182_1_alg».proof.Proof.Gen.Kernel.Skeleton
import proofs.«172131_j86053964743182_1_alg».proof.Proof.Gen.Kernel.Launch
import proofs.«172131_j86053964743182_1_alg».proof.Proof.Gen.Kernel.Points
import proofs.«172131_j86053964743182_1_alg».proof.Proof.Gen.Kernel.Frame
import proofs.«172131_j86053964743182_1_alg».proof.Proof.Gen.KernelIdeal
import proofs.«172131_j86053964743182_1_alg».proof.Proof.Gen.KernelIdeal.Skeleton
import proofs.«172131_j86053964743182_1_alg».proof.Proof.Gen.KernelIdeal.Launch
import proofs.«172131_j86053964743182_1_alg».proof.Proof.Gen.KernelIdeal.Points
import proofs.«172131_j86053964743182_1_alg».proof.Proof.Gen.KernelIdeal.Frame
import proofs.«172131_j86053964743182_1_alg».proof.Proof.Gen.ReferenceIdeal
import proofs.«172131_j86053964743182_1_alg».proof.Proof.Gen.ReferenceIdeal.Run
import proofs.«172131_j86053964743182_1_alg».proof.Proof.Gen.ReferenceIdeal.Read
import proofs.«172131_j86053964743182_1_alg».proof.Proof.Gen.Pre_finite_inputs
import proofs.«172131_j86053964743182_1_alg».proof.Proof.KRun
import proofs.«172131_j86053964743182_1_alg».proof.Proof.RValue
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at the overlap-add of the frames of those arguments. -/
theorem algebraic : Cert.algebraic_KernelIdeal_ReferenceIdeal := by
  intro m ρ m' ρ' _ hagree
  refine ⟨fun c => Cert.Spec.result (FloatOps.ofBits (F := Ideal) .f32 0x00000000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq (F := Ideal) _ _ _).trans ?_
  rw [Cert.ReferenceIdeal.Hand.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
